-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096x3 : Shape := ⟨3, ![4096, 4096, 3]⟩
abbrev S4096x4096x16 : Shape := ⟨3, ![4096, 4096, 16]⟩
abbrev S_ : Shape := ⟨0, ![]⟩

class Facts : Prop where
  bcast_S_S4096x4096x3 : S_.BroadcastsInDim S4096x4096x3 (![] : Fin 0 → Fin S4096x4096x3.rank)
  reducesTo_S4096x4096x3_S_d0_1_2 : S4096x4096x3.ReducesTo [0, 1, 2] S_
  h_S_ : 0 < S_.numel
  bcast_S_S4096x4096x16 : S_.BroadcastsInDim S4096x4096x16 (![] : Fin 0 → Fin S4096x4096x16.rank)
  reducesTo_S4096x4096x16_S_d0_1_2 : S4096x4096x16.ReducesTo [0, 1, 2] S_

variable [Facts]

def fn {F : FTy → Type} [FloatOps F] (main_arg0 : FVec F S4096x4096x3 .f32) (main_arg1 : FVec F S4096x4096x16 .f32) : IVec S_ 1 :=
  let main_v0 : FVec F S4096x4096x3 .f32 := Host.absf main_arg0
  let main_cst : FVec F S_ .f32 := constant S_ .f32 0x7F800000#32
  let main_v1 : FVec F S4096x4096x3 .f32 := broadcastInDim S4096x4096x3 ![] bcast_S_S4096x4096x3 main_cst
  let main_v2 : IVec S4096x4096x3 1 := cmpf .olt main_v0 main_v1
  let main_c : IVec S_ 1 := constantI S_ 1 1#1
  let main_v3 : IVec S_ 1 := (fun x v => Host.reduce IntOp.andi x v reducesTo_S4096x4096x3_S_d0_1_2 h_S_) main_v2 main_c
  let main_v4 : FVec F S4096x4096x16 .f32 := Host.absf main_arg1
  let main_cst_0 : FVec F S_ .f32 := constant S_ .f32 0x7F800000#32
  let main_v5 : FVec F S4096x4096x16 .f32 := broadcastInDim S4096x4096x16 ![] bcast_S_S4096x4096x16 main_cst_0
  let main_v6 : IVec S4096x4096x16 1 := cmpf .olt main_v4 main_v5
  let main_c_1 : IVec S_ 1 := constantI S_ 1 1#1
  let main_v7 : IVec S_ 1 := (fun x v => Host.reduce IntOp.andi x v reducesTo_S4096x4096x16_S_d0_1_2 h_S_) main_v6 main_c_1
  let main_v8 : IVec S_ 1 := andi main_v3 main_v7
  main_v8
-- ==== Kernel.lean ====
abbrev S4096x4096x3 : Shape := ⟨3, ![4096, 4096, 3]⟩
abbrev S4096x4096x16 : Shape := ⟨3, ![4096, 4096, 16]⟩
abbrev S4096x4096x1 : Shape := ⟨3, ![4096, 4096, 1]⟩
abbrev S4096x4096 : Shape := ⟨2, ![4096, 4096]⟩
abbrev S512x4096 : Shape := ⟨2, ![512, 4096]⟩

abbrev nBuf : Space → Nat
  | .hbm => 7
  | .vmem => 6
  | .smem => 0
  | _ => 0

abbrev bufTy : (tb : Table) → Fin (tcTables nBuf tb) → BufTy
  | .hbm, ⟨0, _⟩ => ⟨S4096x4096x3, .f32⟩
  | .hbm, ⟨1, _⟩ => ⟨S4096x4096x16, .f32⟩
  | .hbm, ⟨2, _⟩ => ⟨S4096x4096x1, .f32⟩
  | .hbm, ⟨3, _⟩ => ⟨S4096x4096, .f32⟩
  | .hbm, ⟨4, _⟩ => ⟨S4096x4096x1, .f32⟩
  | .hbm, ⟨5, _⟩ => ⟨S4096x4096, .f32⟩
  | .hbm, ⟨6, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S512x4096, .f32⟩
  | .local _ .vmem, ⟨5, _⟩ => ⟨S512x4096, .f32⟩
  | _, _ => ⟨S4096x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S4096x4096x3_S4096x4096x1_0_0_0 : S4096x4096x3.Slices ![0, 0, 0] S4096x4096x1
  shapeCasts_S4096x4096x1_S4096x4096 : S4096x4096x1.ShapeCasts S4096x4096
  slices_S4096x4096x16_S4096x4096x1_0_0_15 : S4096x4096x16.Slices ![0, 0, 15] S4096x4096x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .f32 = 32 ∨ (Rect.block (s := S4096x4096) S512x4096.size (cc0_transform_2 i) (hinb0_2 i)).WholeWords (EltTy.packing .f32)

variable [Facts₀]

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x4096x3 : Shape := ⟨3, ![4096, 4096, 3]⟩
abbrev S4096x4096x16 : Shape := ⟨3, ![4096, 4096, 16]⟩
abbrev S4096x4096x1 : Shape := ⟨3, ![4096, 4096, 1]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096x3, .f32⟩
  | .hbm, ⟨1, _⟩ => ⟨S4096x4096x16, .f32⟩
  | .hbm, ⟨2, _⟩ => ⟨S4096x4096x1, .f32⟩
  | .hbm, ⟨3, _⟩ => ⟨S4096x4096, .f32⟩
  | .hbm, ⟨4, _⟩ => ⟨S4096x4096x1, .f32⟩
  | .hbm, ⟨5, _⟩ => ⟨S4096x4096, .f32⟩
  | .hbm, ⟨6, _⟩ => ⟨S4096x4096, .f32⟩
  | _, _ => ⟨S4096x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  slices_S4096x4096x16_S4096x4096x1_0_0_15 : S4096x4096x16.Slices ![0, 0, 15] S4096x4096x1
  shapeCasts_S4096x4096x1_S4096x4096 : S4096x4096x1.ShapeCasts S4096x4096
  slices_S4096x4096x3_S4096x4096x1_0_0_0 : S4096x4096x3.Slices ![0, 0, 0] S4096x4096x1

variable [Facts₀]

class Facts : Prop extends Facts₀ where

variable [Facts]
-- ==== Proof.MulComm.lean ====
/-
  The one law this certificate rests on. Over the extended reals an elementwise product of two arrays
  does not depend on the order of its factors: at every index it is the product of two extended reals,
  and that product is commutative at every value, the infinities and zero included. No finiteness of the
  entries is used.
-/
import Idealize.ShloMosaic.PureOps.Ideal
import Idealize.ShloMosaic.Lib.ValueIdx

noncomputable section

namespace Cert.MulComm

open Idealize.ShloMosaic Idealize.ShloMosaic.ValueIdx

/-- The elementwise product of two arrays of extended reals is symmetric in its factors: index by index
    it is `a i * b i = b i * a i`. -/
theorem mulf_comm {s : Shape} {φ : FTy} (a b : FVec Ideal s φ) : mulf a b = mulf b a := by
  funext i
  rw [mulf_apply, mulf_apply]
  exact mul_comm (a i) (b i)

end Cert.MulComm

end
-- ==== Proof.KernelPlane.lean ====
/-
  What the idealized kernel leaves in its result array, as ONE function of the arrays the region finds.

  The region multiplies two 4096 x 4096 planes block by block: the grid has 8 points, point t stages rows
  512 t .. 512 t + 511 of each operand plane (all 4096 columns), multiplies the two staged blocks entry by
  entry and writes the product back to the same rows of the result plane. The three windows move together
  (the same block index at every point), so an entry of point t's block of the result is the product of
  the two operand planes' entries at the same array index; and the 8 row blocks tile the result plane
  (row r lies in block r / 512). Hence the result plane ends as the entrywise product of the operand planes.

  The operand planes are what the host operations before the region wrote: channel 0 of the first argument
  and channel 15 of the second, each reshaped from [4096, 4096, 1] to [4096, 4096].
-/
import proofs.«130581_j6073083757041_1_alg».proof.Proof.Gen.KernelIdeal.Value
import Idealize.ShloMosaic.Lib.Pipeline.Value
import Idealize.ShloMosaic.Lib.StableHlo.Run

noncomputable section

namespace Cert.KernelIdeal.Plane

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's one rectangle starts at the block's origin. -/
theorem origin : (![0, 0] : Fin 2 → Nat) = fun _ => 0 := funext fun a => by fin_cases a <;> rfl

/-- The entrywise product of two planes. -/
abbrev prod (a0 a1 : S4096x4096.Idx → Elt F .f32) : S4096x4096.Idx → Elt F .f32 :=
  fun i => FloatOps.mulf (a0 i) (a1 i)

/-- The body's stored value is the entrywise product of its two loaded blocks (the two shape casts are
    to the blocks' own shape). -/
theorem stored_eq (x0 x1 : Vec F S512x4096 .f32) : k0_pay1 x0 x1 = mulf x0 x1 := by
  unfold k0_pay1
  rw [shapeCast_self, shapeCast_self]

/-- The three index maps agree at every grid point: block (t, 0), with t below 8. -/
theorem maps_agree : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = t.val
    ∧ win0_2.index t (1 : Fin 2) = 0 :=
  (by decide +kernel : ∀ t : Fin grid0.N, _)

/-- What point `t` writes back is block `t` of the product of the two operand planes. -/
theorem flushed_eq (c : Dev nD) (t : Fin cfg0.N) :
    (dats m 0 c).flushed 2 t = ((cfg0.win 2).blk t).view.read (Elt F) (prod (V m c main_v1) (V m c main_v3)) := by
  rw [Value.flushed2]
  unfold out0_2
  rw [View.canon_unit_zero origin]
  simp only [View.ld_unit_zero (S := S512x4096) origin]
  rw [stored_eq]
  obtain ⟨e0, e1, e2, e3, e4, e5⟩ := maps_agree t
  funext j
  show FloatOps.mulf (V m c main_v1 (((cfg0.win 0).blk t).view.emb j)) (V m c main_v3 (((cfg0.win 1).blk t).view.emb j))
    = FloatOps.mulf (V m c main_v1 (((cfg0.win 2).blk t).view.emb j)) (V m c main_v3 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb j = ((cfg0.win 2).blk t).view.emb j := by
    funext a; apply Fin.ext
    match a with
    | ⟨0, _⟩ => show win0_1.index t (0 : Fin 2) * 512 + 1 * (j 0).val = win0_2.index t (0 : Fin 2) * 512 + 1 * (j 0).val; omega
    | ⟨1, _⟩ => show win0_1.index t (1 : Fin 2) * 4096 + 1 * (j 1).val = win0_2.index t (1 : Fin 2) * 4096 + 1 * (j 1).val; omega
  rw [h0, h1]

/-- An index of the result plane is in point `t`'s block iff each coordinate is in the block's range. -/
theorem mem_block (t : Fin cfg0.N) (i : S4096x4096.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v4).slice (win0_2.rect t)).set ↔ _
  rw [View.set_slice_whole, Rect.mem_set_unit]
  exact Iff.rfl

/-- The 8 row blocks tile the result plane: row r is in the block of point r / 512. -/
theorem covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hN : cfg0.N = 8 := N_0
  let t : Fin cfg0.N := ⟨(i 0).val / 512, by omega⟩
  obtain ⟨e0, e1, e2, e3, e4, e5⟩ := maps_agree t
  have e4' : win0_2.index t (0 : Fin 2) = (i 0).val / 512 := e4
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-- The result plane after the run is the entrywise product of the operand planes as the region finds them. -/
theorem final (c : Dev nD) : (dats m 0 c).arrAt 2 cfg0.N = prod (V m c main_v1) (V m c main_v3) :=
  (dats m 0 c).arrAt_eq_of_cover 2 (prod (V m c main_v1) (V m c main_v3)) (fun t _ => flushed_eq m c t) covered

/-- The first operand plane is channel 0 of the first argument, its unit axis reshaped away. -/
theorem plane0 (c : Dev nD) : (V m c main_v1 : S4096x4096.Idx → Elt F .f32)
    = shapeCast S4096x4096 (extractStridedSlice S4096x4096x1 ![0, 0, 0] (m ((c : Thread nD τ).loc main_arg0)) slices_S4096x4096x3_S4096x4096x1_0_0_0) shapeCasts_S4096x4096x1_S4096x4096 := by
  dsimp only [Gen.V, Gen.hostOps0]
  after_results
  rfl

/-- The second operand plane is channel 15 of the second argument, its unit axis reshaped away. -/
theorem plane1 (c : Dev nD) : (V m c main_v3 : S4096x4096.Idx → Elt F .f32)
    = shapeCast S4096x4096 (extractStridedSlice S4096x4096x1 ![0, 0, 15] (m ((c : Thread nD τ).loc main_arg1)) slices_S4096x4096x16_S4096x4096x1_0_0_15) shapeCasts_S4096x4096x1_S4096x4096 := by
  dsimp only [Gen.V, Gen.hostOps0]
  after_results
  rfl

/-- The run, read: the result plane ends as the product of the two channel planes of the arguments, and
    the arguments end unchanged. -/
theorem run : θ_run defs (onTc (τ := τ) (main (F := F))) ⟨m, fun _ => 0, ρ⟩ fun r => ∀ c : Dev nD,
      r.2.mem ((c : Thread nD τ).loc main_v4)
        = prod (shapeCast S4096x4096 (extractStridedSlice S4096x4096x1 ![0, 0, 0] (m ((c : Thread nD τ).loc main_arg0)) slices_S4096x4096x3_S4096x4096x1_0_0_0) shapeCasts_S4096x4096x1_S4096x4096)
            (shapeCast S4096x4096 (extractStridedSlice S4096x4096x1 ![0, 0, 15] (m ((c : Thread nD τ).loc main_arg1)) slices_S4096x4096x16_S4096x4096x1_0_0_15) shapeCasts_S4096x4096x1_S4096x4096)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨by rw [(h c).1, final m c, plane0 m c, plane1 m c], (h c).2⟩)
    (Value.run_blocks m ρ)

end Cert.KernelIdeal.Plane

end
-- ==== Proof.lean ====
/-
  The kernel multiplies, entry by entry, channel 0 of `image` (a 4096 x 4096 plane) by channel 15 of `w`;
  the reference multiplies channel 15 of `w` by channel 0 of `image`. Over the extended reals both are the
  same array: a product of two extended reals does not depend on the order of its factors, whatever the
  factors are (so the precondition's finiteness is never opened).

  Kernel side (Proof/KernelPlane.lean): the region's 8 row blocks tile the result plane and each holds the
  product of the two operand planes at the same indices, so the result plane is their entrywise product;
  the operand planes are the two channel slices the host operations before the region wrote.
  Reference side: its run, read back operation by operation, ends at the entrywise product of the same two
  channel slices, in the other order. Proof/MulComm.lean joins the two.

  The three frames are the programs' runs with the results dropped; the idealization rewrote nothing, so
  there is nothing to preserve.
-/
import proofs.«130581_j6073083757041_1_alg».proof.Defs
import proofs.«130581_j6073083757041_1_alg».proof.Proof.Gen.Kernel
import proofs.«130581_j6073083757041_1_alg».proof.Proof.Gen.Kernel.Skeleton
import proofs.«130581_j6073083757041_1_alg».proof.Proof.Gen.Kernel.Launch
import proofs.«130581_j6073083757041_1_alg».proof.Proof.Gen.Kernel.Points
import proofs.«130581_j6073083757041_1_alg».proof.Proof.Gen.Kernel.Frame
import proofs.«130581_j6073083757041_1_alg».proof.Proof.Gen.KernelIdeal
import proofs.«130581_j6073083757041_1_alg».proof.Proof.Gen.KernelIdeal.Skeleton
import proofs.«130581_j6073083757041_1_alg».proof.Proof.Gen.KernelIdeal.Launch
import proofs.«130581_j6073083757041_1_alg».proof.Proof.Gen.KernelIdeal.Points
import proofs.«130581_j6073083757041_1_alg».proof.Proof.Gen.KernelIdeal.Frame
import proofs.«130581_j6073083757041_1_alg».proof.Proof.Gen.KernelIdeal.Value
import proofs.«130581_j6073083757041_1_alg».proof.Proof.Gen.ReferenceIdeal
import proofs.«130581_j6073083757041_1_alg».proof.Proof.Gen.ReferenceIdeal.Run
import proofs.«130581_j6073083757041_1_alg».proof.Proof.Gen.Pre_finite_inputs
import proofs.«130581_j6073083757041_1_alg».proof.Proof.MulComm
import proofs.«130581_j6073083757041_1_alg».proof.Proof.KernelPlane
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernel_ideal : Cert.frame_KernelIdeal := fun m ρ _ => Cert.KernelIdeal.Gen.frame m ρ

/-- The idealized reference runs and leaves its arguments unchanged: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result plane is (channel 0 of the first argument) times
    (channel 15 of the second), entry by entry, and the reference's is the same two planes multiplied in
    the other order: equal, since the product of extended reals is commutative. -/
theorem algebraic : Cert.algebraic_KernelIdeal_ReferenceIdeal := by
  intro m ρ m' ρ' _ hagree
  refine ⟨_, Cert.KernelIdeal.Plane.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.MulComm.mulf_comm _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
